-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S10000x512 .f32) (main_arg1 : IVec S2x160000 32) (main_arg2 : FVec F S512x512 .f32) (main_arg3 : FVec F S512x512 .f32) (main_arg4 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S1x512 : Shape := ⟨2, ![1, 512]⟩
abbrev S2000x512 : Shape := ⟨2, ![2000, 512]⟩

abbrev nBuf : Space → Nat
  | .hbm => 40
  | .vmem => 9
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S1x160000, .i32⟩
  | .hbm, ⟨6, _⟩ => ⟨S160000, .i32⟩
  | .hbm, ⟨7, _⟩ => ⟨S1x160000, .i32⟩
  | .hbm, ⟨8, _⟩ => ⟨S160000, .i32⟩
  | .hbm, ⟨9, _⟩ => ⟨S_, .i32⟩
  | .hbm, ⟨10, _⟩ => ⟨S160000, .i32⟩
  | .hbm, ⟨11, _⟩ => ⟨S160000, .i1⟩
  | .hbm, ⟨12, _⟩ => ⟨S_, .i32⟩
  | .hbm, ⟨13, _⟩ => ⟨S160000, .i32⟩
  | .hbm, ⟨14, _⟩ => ⟨S160000, .i32⟩
  | .hbm, ⟨15, _⟩ => ⟨S160000, .i32⟩
  | .hbm, ⟨16, _⟩ => ⟨S160000x1, .i32⟩
  | .hbm, ⟨17, _⟩ => ⟨S160000x512, .f32⟩
  | .hbm, ⟨18, _⟩ => ⟨S_, .f32⟩
  | .hbm, ⟨19, _⟩ => ⟨S10000x512, .f32⟩
  | .hbm, ⟨20, _⟩ => ⟨S160000x1, .i32⟩
  | .hbm, ⟨21, _⟩ => ⟨S10000x512, .f32⟩
  | .hbm, ⟨22, _⟩ => ⟨S_, .f32⟩
  | .hbm, ⟨23, _⟩ => ⟨S160000, .f32⟩
  | .hbm, ⟨24, _⟩ => ⟨S_, .f32⟩
  | .hbm, ⟨25, _⟩ => ⟨S10000, .f32⟩
  | .hbm, ⟨26, _⟩ => ⟨S160000x1, .i32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x512, .f32⟩
  | .hbm, ⟨33, _⟩ => ⟨S10000x512, .f32⟩
  | .hbm, ⟨34, _⟩ => ⟨S10000x512, .bf16⟩
  | .hbm, ⟨35, _⟩ => ⟨S10000x512, .bf16⟩
  | .hbm, ⟨36, _⟩ => ⟨S512x512, .bf16⟩
  | .hbm, ⟨37, _⟩ => ⟨S512x512, .bf16⟩
  | .hbm, ⟨38, _⟩ => ⟨S1x512, .f32⟩
  | .hbm, ⟨39, _⟩ => ⟨S10000x512, .f32⟩
  | .local _ .vmem, ⟨0, _⟩ => ⟨S2000x512, .bf16⟩
  | .local _ .vmem, ⟨1, _⟩ => ⟨S2000x512, .bf16⟩
  | .local _ .vmem, ⟨2, _⟩ => ⟨S2000x512, .bf16⟩
  | .local _ .vmem, ⟨3, _⟩ => ⟨S2000x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S2000x512, .f32⟩
  | .local _ .vmem, ⟨8, _⟩ => ⟨S2000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bitsLt_bf16_f32 : FTy.bits .bf16 < FTy.bits .f32
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .bf16 = 32 ∨ (Rect.block (s := S10000x512) S2000x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S10000x512.size a
  hwx0_1 : ∀ i : grid0.Coords, EltTy.bits .bf16 = 32 ∨ (Rect.block (s := S10000x512) S2000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S10000x512.size a
  hwx0_5 : ∀ i : grid0.Coords, EltTy.bits .f32 = 32 ∨ (Rect.block (s := S10000x512) S2000x512.size (cc0_transform_5 i) (hinb0_5 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_v23) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S1x512 : Shape := ⟨2, ![1, 512]⟩

abbrev nBuf : Space → Nat
  | .hbm => 49
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S1x160000, .i32⟩
  | .hbm, ⟨6, _⟩ => ⟨S160000, .i32⟩
  | .hbm, ⟨7, _⟩ => ⟨S1x160000, .i32⟩
  | .hbm, ⟨8, _⟩ => ⟨S160000, .i32⟩
  | .hbm, ⟨9, _⟩ => ⟨S_, .i32⟩
  | .hbm, ⟨10, _⟩ => ⟨S160000, .i32⟩
  | .hbm, ⟨11, _⟩ => ⟨S160000, .i1⟩
  | .hbm, ⟨12, _⟩ => ⟨S_, .i32⟩
  | .hbm, ⟨13, _⟩ => ⟨S160000, .i32⟩
  | .hbm, ⟨14, _⟩ => ⟨S160000, .i32⟩
  | .hbm, ⟨15, _⟩ => ⟨S160000, .i32⟩
  | .hbm, ⟨16, _⟩ => ⟨S160000x1, .i32⟩
  | .hbm, ⟨17, _⟩ => ⟨S160000x512, .f32⟩
  | .hbm, ⟨18, _⟩ => ⟨S_, .f32⟩
  | .hbm, ⟨19, _⟩ => ⟨S10000x512, .f32⟩
  | .hbm, ⟨20, _⟩ => ⟨S160000x1, .i32⟩
  | .hbm, ⟨21, _⟩ => ⟨S10000x512, .f32⟩
  | .hbm, ⟨22, _⟩ => ⟨S_, .f32⟩
  | .hbm, ⟨23, _⟩ => ⟨S160000, .f32⟩
  | .hbm, ⟨24, _⟩ => ⟨S_, .f32⟩
  | .hbm, ⟨25, _⟩ => ⟨S10000, .f32⟩
  | .hbm, ⟨26, _⟩ => ⟨S160000x1, .i32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x512, .f32⟩
  | .hbm, ⟨33, _⟩ => ⟨S10000x512, .f32⟩
  | .hbm, ⟨34, _⟩ => ⟨S10000x512, .f32⟩
  | .hbm, ⟨35, _⟩ => ⟨S1x512, .f32⟩
  | .hbm, ⟨36, _⟩ => ⟨S10000x512, .f32⟩
  | .hbm, ⟨37, _⟩ => ⟨S10000x512, .f32⟩
  | .hbm, ⟨38, _⟩ => ⟨S10000x512, .f32⟩
  | .hbm, ⟨39, _⟩ => ⟨S10000x512, .f32⟩
  | .hbm, ⟨40, _⟩ => ⟨S10000x512, .f32⟩
  | .hbm, ⟨41, _⟩ => ⟨S10000x512, .f32⟩
  | .hbm, ⟨42, _⟩ => ⟨S_, .f32⟩
  | .hbm, ⟨43, _⟩ => ⟨S10000x512, .f32⟩
  | .hbm, ⟨44, _⟩ => ⟨S10000x512, .f32⟩
  | .hbm, ⟨45, _⟩ => ⟨S_, .f32⟩
  | .hbm, ⟨46, _⟩ => ⟨S10000x512, .f32⟩
  | .hbm, ⟨47, _⟩ => ⟨S10000x512, .f32⟩
  | .hbm, ⟨48, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x512_S512x512_S10000x512_1_0_0_1_n_n_wf : DotDims.WF S10000x512 S512x512 S10000x512 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.SageSpec.lean ====
/-
  The layer's result as one function of its arrays, and the one law that joins the two programs.

  For a node `P` and an output feature `q` the pre-activation is
    `h P q = (∑ k, mean (P, k) · W_l (k, q) + ∑ k, x (P, k) · W_r (k, q)) + b q`
  and the result is `h · σ(h)`, `σ(h) = 1 / (1 + e^(-h))` on the extended reals. One program adds the bias
  after both products, the other between them: addition of extended reals is commutative and associative at
  the infinities too, so the two pre-activations are equal with no finiteness assumption.
-/
import Idealize.ShloMosaic.Lib.ValueIdx
import Idealize.ShloMosaic.PureOps.Ideal.Laws

open scoped BigOperators

noncomputable section

namespace Cert.Sage

open Idealize.ShloMosaic Idealize.ShloMosaic.ValueIdx

/-- A node-by-feature array and a square weight array, as functions on their index types. -/
abbrev NodeArr : Type := (⟨2, ![10000, 512]⟩ : Shape).Idx → EReal
abbrev WArr : Type := (⟨2, ![512, 512]⟩ : Shape).Idx → EReal

/-- The pre-activation at node `P`, feature `q`: both products first, the bias last. -/
def preAct (mean x : NodeArr) (wl wr : WArr) (b : Fin 512 → EReal) (P : Fin 10000) (q : Fin 512) : EReal :=
  (∑ k : Fin 512, mean (ix2 P k) * wl (ix2 k q) + ∑ k : Fin 512, x (ix2 P k) * wr (ix2 k q)) + b q

/-- The activation `h · σ(h)`. -/
def swish (h : EReal) : EReal := h * Ideal.logistic h

/-- The whole result array. -/
def sageOut (mean x : NodeArr) (wl wr : WArr) (b : Fin 512 → EReal) : NodeArr :=
  fun i => swish (preAct mean x wl wr b (i 0) (i 1))

theorem sageOut_ix2 (mean x : NodeArr) (wl wr : WArr) (b : Fin 512 → EReal) (P : Fin 10000) (q : Fin 512) :
    sageOut mean x wl wr b (ix2 P q) = swish (preAct mean x wl wr b P q) := rfl

/-- The bias may be added between the two products instead of after them. -/
theorem preAct_bias_between (mean x : NodeArr) (wl wr : WArr) (b : Fin 512 → EReal) (P : Fin 10000) (q : Fin 512) :
    (∑ k : Fin 512, mean (ix2 P k) * wl (ix2 k q) + b q) + ∑ k : Fin 512, x (ix2 P k) * wr (ix2 k q)
      = preAct mean x wl wr b P q := by
  unfold preAct
  exact add_right_comm _ _ _

/-- The pattern of the float `1.0` denotes the real one. -/
theorem one_f32 : Ideal.ofBits .f32 0x3F800000#32 = 1 := IdealRules.sign_bit.ideal_onePat .f32

/-- The activation spelled with a quotient, a sum and an exponential is `swish`. -/
theorem swish_spelled (h : EReal) : h * Ideal.div 1 (1 + Ideal.exp (-h)) = swish h := rfl

end Cert.Sage

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.SagePayload.lean ====
/-
  What the kernel's body stores, read at one element.

  From the blocks it loads — a row block of the mean and of the features, both whole weight arrays, the bias
  row — the body forms both products into zero accumulators, adds them, adds the bias row broadcast down the
  rows, and multiplies by the logistic of that sum. At row `p`, feature `q` of the block this is
  `swish ((∑ k, mean (p, k) · W_l (k, q) + ∑ k, x (p, k) · W_r (k, q)) + b (0, q))`.
-/
import proofs.«156588_j14697378087214_1_alg».proof.Proof.Gen.KernelIdeal.Skeleton
import proofs.«156588_j14697378087214_1_alg».proof.Proof.SageSpec
import proofs.«156588_j14697378087214_1_alg».proof.Proof.LibPlainDot
import Idealize.ShloMosaic.Lib.Pipeline.Value

open scoped BigOperators

noncomputable section

namespace Cert.Sage.Ker

open Cert.KernelIdeal Cert.KernelIdeal.Gen
open Idealize.ShloMosaic Idealize.ShloMosaic.ValueIdx Cert.Sage

/-- Either of the body's two products into the zero splat, at `(p, q)`. -/
theorem mm_apply (l : FVec Ideal S2000x512 .bf16) (r : FVec Ideal S512x512 .bf16) (p : Fin 2000) (q : Fin 512) :
    matmul dot_S2000x512_S512x512_S2000x512_1_0_0_1_n_n none l r (constant S2000x512 .f32 0x00000000#32) (ix2 p q)
      = ∑ k : Fin 512, l (ix2 p k) * r (ix2 k q) :=
  PlainDot.matmul_zero_apply dot_S2000x512_S512x512_S2000x512_1_0_0_1_n_n rfl rfl rfl rfl rfl rfl rfl rfl none l r p q

/-- The bias row broadcast down the rows, at `(p, q)`, is the row's entry `q`. -/
theorem bias_apply (v : FVec Ideal S1x512 .f32) (p : Fin 2000) (q : Fin 512) :
    broadcastTo S2000x512 v broadcasts_S1x512_S2000x512 (ix2 p q) = v (ix2 0 q) :=
  broadcastTo_apply v broadcasts_S1x512_S2000x512 (ix2 p q) (ix2 0 q) (fun a => by
    match a with
    | ⟨0, _⟩ => rfl
    | ⟨1, _⟩ => rfl)

theorem logistic_apply {s : Shape} (a : FVec Ideal s .f32) (i : s.Idx) : logistic a i = Ideal.logistic (a i) := rfl

/-- The stored value at `(p, q)`. -/
theorem pay_apply (x0 x5 : Vec Ideal S2000x512 .bf16) (x2 x7 : Vec Ideal S512x512 .bf16) (x11 : Vec Ideal S1x512 .f32)
    (p : Fin 2000) (q : Fin 512) :
    k0_pay1 x0 x2 x5 x7 x11 (ix2 p q)
      = swish ((∑ k : Fin 512, x0 (ix2 p k) * x2 (ix2 k q) + ∑ k : Fin 512, x5 (ix2 p k) * x7 (ix2 k q)) + x11 (ix2 0 q)) := by
  unfold k0_pay1
  rw [mulf_apply, logistic_apply, addf_apply, addf_apply, bias_apply]
  simp only [shapeCast_self]
  rw [mm_apply, mm_apply]
  rfl

end Cert.Sage.Ker

end
-- ==== Proof.SageKernel.lean ====
/-
  The kernel's result array, from the blocks its grid points write.

  The grid has five points; point `t` reads rows `2000 t … 2000 t + 1999` of the mean and of the features,
  both weight arrays whole and the bias row, and writes the same rows of the result. What it writes at row
  `p` of its block, feature `q`, is the stored value of the body read at `(p, q)`: the specification's
  entry at node `2000 t + p`, feature `q`, of the arrays the region finds. The five row blocks tile the
  10000 nodes, so after the run the result array is the specification's whole array.
-/
import proofs.«156588_j14697378087214_1_alg».proof.Proof.Gen.KernelIdeal.Value
import proofs.«156588_j14697378087214_1_alg».proof.Proof.SagePayload
import proofs.«156588_j14697378087214_1_alg».proof.Proof.SageSpec
import Idealize.ShloMosaic.Lib.Pipeline.Value

set_option maxRecDepth 16384

open scoped BigOperators

noncomputable section

namespace Cert.Sage.Ker

open Cert.KernelIdeal Cert.KernelIdeal.Gen Cert.KernelIdeal.Value
open Idealize.ShloMosaic Idealize.ShloMosaic.TcCoe Idealize.SL.Sem Idealize.ShloMosaic.ValueIdx Cert.Sage
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The stored value at an element `y` of a block is the specification's entry at the array index `i`, whenever
    the loaded blocks hold, along `y`'s row and column, what the arrays hold along `i`'s. -/
theorem block_point (A0 A1 : NodeArr) (W2 W3 : WArr) (B : S1x512.Idx → EReal)
    (x0 x1 : Vec Ideal S2000x512 .bf16) (x2 x3 : Vec Ideal S512x512 .bf16) (x4 : Vec Ideal S1x512 .f32)
    (y : S2000x512.Idx) (i : S10000x512.Idx)
    (h0 : ∀ k : Fin 512, x0 (ix2 (y 0) k) = A0 (ix2 (i 0) k))
    (h1 : ∀ k : Fin 512, x1 (ix2 (y 0) k) = A1 (ix2 (i 0) k))
    (h2 : ∀ k : Fin 512, x2 (ix2 k (y 1)) = W2 (ix2 k (i 1)))
    (h3 : ∀ k : Fin 512, x3 (ix2 k (y 1)) = W3 (ix2 k (i 1)))
    (h4 : x4 (ix2 0 (y 1)) = B (ix2 0 (i 1))) :
    k0_pay1 x0 x2 x1 x3 x4 y = sageOut A0 A1 W2 W3 (fun q => B (ix2 0 q)) i := by
  obtain ⟨p, q, rfl⟩ : ∃ (p : Fin 2000) (q : Fin 512), y = ix2 p q := ⟨y 0, y 1, eq_ix2 y⟩
  have h0' : ∀ k : Fin 512, x0 (ix2 p k) = A0 (ix2 (i 0) k) := h0
  have h1' : ∀ k : Fin 512, x1 (ix2 p k) = A1 (ix2 (i 0) k) := h1
  have h2' : ∀ k : Fin 512, x2 (ix2 k q) = W2 (ix2 k (i 1)) := h2
  have h3' : ∀ k : Fin 512, x3 (ix2 k q) = W3 (ix2 k (i 1)) := h3
  have h4' : x4 (ix2 0 q) = B (ix2 0 (i 1)) := h4
  rw [pay_apply]
  unfold sageOut preAct
  simp only [h0', h1', h2', h3', h4']

/-- The printed index maps over the five points: the mean's, the features' and the result's row block is the
    point's own, every other block index is zero. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 4 ∧ win0_5.index t (1 : Fin 2) = 0 :=
  (by decide +kernel : ∀ t : Fin grid0.N, _)

/-- Every row block is some point's. -/
theorem idx_onto : ∀ q0 : Fin 5, ∃ t : Fin cfg0.N, win0_5.index t = ![q0.val, 0] :=
  (by decide +kernel : ∀ q0 : Fin 5, ∃ t : Fin grid0.N, win0_5.index t = ![q0.val, 0])

/-- The specification at the arrays the region finds. -/
abbrev target (c : Dev nD) : S10000x512.Idx → EReal :=
  sageOut (V m c main_v23) (V m c main_v24) (V m c main_v25) (V m c main_v26) (fun q => (V m c main_v27 : S1x512.Idx → EReal) (ix2 0 q))

/-- What point `t` writes back is its row block of the specification's array. -/
theorem flushed_eq (c : Dev nD) (t : Fin cfg0.N) :
    (dats m 0 c).flushed 5 t = ((cfg0.win 5).blk t).view.read (Elt Ideal) (target m c) := by
  rw [Value.flushed5]
  unfold out0_5
  rw [View.canon_unit_zero zero_off]
  simp only [View.ld_unit_zero (S := S2000x512) zero_off, View.ld_unit_zero (S := S512x512) zero_off,
    View.ld_unit_zero (S := S1x512) zero_off]
  obtain ⟨e00, e01, e10, e11, e20, e21, e30, e31, e40, e41, e50, e51⟩ := idx_facts t
  funext j
  have hj0 : (j 0).val < 2000 := (j 0).isLt
  have hj1 : (j 1).val < 512 := (j 1).isLt
  show k0_pay1 (iblk m c 0 t) (iblk m c 2 t) (iblk m c 1 t) (iblk m c 3 t) (iblk m c 4 t) j
      = target m c (((cfg0.win 5).blk t).view.emb j)
  refine block_point (V m c main_v23) (V m c main_v24) (V m c main_v25) (V m c main_v26) (V m c main_v27)
    (iblk m c 0 t) (iblk m c 1 t) (iblk m c 2 t) (iblk m c 3 t) (iblk m c 4 t) j (((cfg0.win 5).blk t).view.emb j)
    (fun k => ?_) (fun k => ?_) (fun k => ?_) (fun k => ?_) ?_
  · show V m c main_v23 (((cfg0.win 0).blk t).view.emb (ix2 (j 0) k)) = V m c main_v23 (ix2 ((((cfg0.win 5).blk t).view.emb j) 0) k)
    refine congrArg (V m c main_v23) (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 512 + 1 * k.val = k.val; omega
  · show V m c main_v24 (((cfg0.win 1).blk t).view.emb (ix2 (j 0) k)) = V m c main_v24 (ix2 ((((cfg0.win 5).blk t).view.emb j) 0) k)
    refine congrArg (V m c main_v24) (funext fun a => Fin.ext ?_)
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 512 + 1 * k.val = k.val; omega
  · show V m c main_v25 (((cfg0.win 2).blk t).view.emb (ix2 k (j 1))) = V m c main_v25 (ix2 k ((((cfg0.win 5).blk t).view.emb j) 1))
    refine congrArg (V m c main_v25) (funext fun a => Fin.ext ?_)
    match a with
    | ⟨0, _⟩ => show win0_2.index t (0 : Fin 2) * 512 + 1 * k.val = k.val; omega
    | ⟨1, _⟩ => show win0_2.index t (1 : Fin 2) * 512 + 1 * (j 1).val = win0_5.index t (1 : Fin 2) * 512 + 1 * (j 1).val; omega
  · show V m c main_v26 (((cfg0.win 3).blk t).view.emb (ix2 k (j 1))) = V m c main_v26 (ix2 k ((((cfg0.win 5).blk t).view.emb j) 1))
    refine congrArg (V m c main_v26) (funext fun a => Fin.ext ?_)
    match a with
    | ⟨0, _⟩ => show win0_3.index t (0 : Fin 2) * 512 + 1 * k.val = k.val; omega
    | ⟨1, _⟩ => show win0_3.index t (1 : Fin 2) * 512 + 1 * (j 1).val = win0_5.index t (1 : Fin 2) * 512 + 1 * (j 1).val; omega
  · show V m c main_v27 (((cfg0.win 4).blk t).view.emb (ix2 0 (j 1))) = V m c main_v27 (ix2 0 ((((cfg0.win 5).blk t).view.emb j) 1))
    refine congrArg (V m c main_v27) (funext fun a => Fin.ext ?_)
    match a with
    | ⟨0, _⟩ => show win0_4.index t (0 : Fin 2) * 1 + 1 * 0 = 0; omega
    | ⟨1, _⟩ => show win0_4.index t (1 : Fin 2) * 512 + 1 * (j 1).val = win0_5.index t (1 : Fin 2) * 512 + 1 * (j 1).val; omega

/-- An index of the result array is in point `t`'s block iff each coordinate is in the block's range. -/
theorem mem_blk (t : Fin cfg0.N) (i : S10000x512.Idx) :
    i ∈ ((cfg0.win 5).blk t).view.set ↔ ∀ a : Fin 2, win0_5.index t a * S2000x512.size a ≤ (i a).val ∧ (i a).val < win0_5.index t a * S2000x512.size a + S2000x512.size a := by
  show i ∈ ((View.whole main_v28).slice (win0_5.rect t)).set ↔ _
  rw [View.set_slice_whole, Rect.mem_set_unit]
  exact Iff.rfl

/-- Every index of the result array lies in the block of the point that owns its row. -/
theorem covered (i : S10000x512.Idx) :
    ∃ t : Fin cfg0.N, (cfg0.win 5).flush t = true ∧ i ∈ ((cfg0.win 5).blk t).view.set := by
  have hi0 : (i 0).val < 10000 := (i 0).isLt
  have hi1 : (i 1).val < 512 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 512 ≤ (i 1).val ∧ (i 1).val < win0_5.index t (1 : Fin 2) * 512 + 512; omega

/-- After the run the result array is the specification's array. -/
theorem final (c : Dev nD) : (dats m 0 c).arrAt 5 cfg0.N = target m c :=
  (dats m 0 c).arrAt_eq_of_cover 5 (target m c) (fun t _ => flushed_eq m c t) covered

/-- The run, read: the result array at the specification of the arrays the region finds, the arguments unchanged. -/
theorem run : θ_run defs (onTc (τ := τ) (main (F := Ideal))) ⟨m, fun _ => 0, ρ⟩ fun r => ∀ c : Dev nD,
      r.2.mem ((c : Thread nD τ).loc main_v28) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Sage.Ker

end
-- ==== Proof.SageRef.lean ====
/-
  The reference program's result is the layer's function of its arrays.

  Read one operation at a time, the reference computes at node `p`, feature `q`:
  `h = (∑ k, mean (p, k) · W_l (k, q) + b q) + ∑ k, x (p, k) · W_r (k, q)`, then `h · (1 / (1 + e^(-h)))`,
  where `mean` is the neighbour-mean stage. The bias row is broadcast along the nodes, so its entry at
  `(p, q)` is `b q`. Moving the bias past the second product gives the specification's pre-activation.
-/
import proofs.«156588_j14697378087214_1_alg».proof.Proof.Gen.ReferenceIdeal.Read
import proofs.«156588_j14697378087214_1_alg».proof.Proof.SageSpec
import proofs.«156588_j14697378087214_1_alg».proof.Proof.LibPlainDot

open scoped BigOperators

noncomputable section

namespace Cert.Sage.Ref

open Cert.ReferenceIdeal Cert.ReferenceIdeal.Gen Cert.ReferenceIdeal.Read
open Idealize.ShloMosaic Idealize.ShloMosaic.ValueIdx Cert.Sage

/-- Either of the reference's two matrix products at `(p, q)`: the sum over the contracted feature. -/
theorem dot_apply (l : FVec Ideal S10000x512 .f32) (r : FVec Ideal S512x512 .f32) (p : Fin 10000) (q : Fin 512) :
    Host.dotGeneral dot_S10000x512_S512x512_S10000x512_1_0_0_1_n_n none l r (ix2 p q)
      = ∑ k : Fin 512, l (ix2 p k) * r (ix2 k q) :=
  PlainDot.dotGeneral_apply dot_S10000x512_S512x512_S10000x512_1_0_0_1_n_n rfl rfl rfl rfl rfl rfl rfl rfl none l r p q

/-- The broadcast bias at `(p, q)` is the bias's entry `q`. -/
theorem bias_idx (p : Fin 10000) (q : Fin 512) : idx_main_v24 (idx_main_v25 (ix2 p q)) = ix1 q := by
  funext a
  match a with
  | ⟨0, _⟩ => rfl

/-- The reference's last stage is `sageOut` of its mean stage and the argument arrays. -/
theorem result_eq (x0 : (⟨S10000x512, .f32⟩ : BufTy).Contents (Elt Ideal)) (x1 : (⟨S2x160000, .i32⟩ : BufTy).Contents (Elt Ideal))
    (x2 x3 : (⟨S512x512, .f32⟩ : BufTy).Contents (Elt Ideal)) (x4 : (⟨S512, .f32⟩ : BufTy).Contents (Elt Ideal)) :
    val_main_v35 (F := Ideal) x0 x1 x2 x3 x4
      = sageOut (val_main_v22 (F := Ideal) x0 x1) x0 x2 x3 (fun q => x4 (ix1 q)) := by
  funext i
  obtain ⟨p, q, rfl⟩ : ∃ (p : Fin 10000) (q : Fin 512), i = ix2 p q := ⟨i 0, i 1, eq_ix2 i⟩
  have e23 : val_main_v23 (F := Ideal) x0 x1 x2 (ix2 p q)
      = ∑ k : Fin 512, val_main_v22 (F := Ideal) x0 x1 (ix2 p k) * x2 (ix2 k q) := by
    unfold val_main_v23; exact dot_apply _ _ p q
  have e27 : val_main_v27 (F := Ideal) x0 x3 (ix2 p q) = ∑ k : Fin 512, x0 (ix2 p k) * x3 (ix2 k q) := by
    unfold val_main_v27; exact dot_apply _ _ p q
  rw [sageOut_ix2, ← preAct_bias_between, ← swish_spelled]
  rw [val_main_v35_apply, val_main_v34_apply, val_main_v33_apply, val_main_cst_5_apply, val_main_v32_apply,
    val_main_v31_apply, val_main_cst_4_apply, val_main_v30_apply, val_main_v29_apply, val_main_v28_apply,
    val_main_v26_apply, val_main_v25_apply, val_main_v24_apply, e23, e27, bias_idx]
  simp only [Ideal.mulf_def, Ideal.hostDivf_def, Ideal.addf_def, Ideal.hostUnary_exp_def, Ideal.hostNegf_def,
    Ideal.negf_def, Ideal.ofBits_def, one_f32]

end Cert.Sage.Ref

end
-- ==== Proof.SageEntry.lean ====
/-
  The arrays the kernel's region finds, as functions of the program's arguments.

  Before the region the program forms the neighbour mean from the features and the edge list, changes the
  float format of the mean, the features and both weight arrays (the identity on extended reals), and
  reshapes the bias to one row. So the region finds the features and the weights as given, the bias row's entry
  `(0, q)` equal to `b q`, and the mean equal to the same composition of gather, scatter-add, maximum and
  quotient that the reference program forms: the two programs share that prefix operation for operation.
-/
import proofs.«156588_j14697378087214_1_alg».proof.Proof.Gen.KernelIdeal.Frame
import proofs.«156588_j14697378087214_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.Sage.Entry

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The features reach the region as given. -/
theorem feat_eq (c : Dev nD) :
    (V m c main_v24 : S10000x512.Idx → EReal) = m ((c : Thread nD τ).loc main_arg0) := by
  dsimp only [V, hostOps0]; after_results; rfl

/-- The first weight array reaches the region as given. -/
theorem wl_eq (c : Dev nD) :
    (V m c main_v25 : S512x512.Idx → EReal) = m ((c : Thread nD τ).loc main_arg2) := by
  dsimp only [V, hostOps0]; after_results; rfl

/-- The second weight array reaches the region as given. -/
theorem wr_eq (c : Dev nD) :
    (V m c main_v26 : S512x512.Idx → EReal) = m ((c : Thread nD τ).loc main_arg3) := by
  dsimp only [V, hostOps0]; after_results; rfl

/-- The bias row's entry `(0, q)` is the bias's entry `q`. -/
theorem bias_eq (c : Dev nD) (q : Fin 512) :
    (V m c main_v27 : S1x512.Idx → EReal) (ix2 0 q) = (m ((c : Thread nD τ).loc main_arg4) : S512.Idx → EReal) (ix1 q) := by
  have e : (V m c main_v27 : S1x512.Idx → EReal)
      = shapeCast S1x512 (m ((c : Thread nD τ).loc main_arg4) : S512.Idx → EReal) shapeCasts_S512_S1x512 := by
    dsimp only [V, hostOps0]; after_results; rfl
  rw [e]
  exact shapeCast_apply _ shapeCasts_S512_S1x512 (ix2 0 q) (ix1 q)
    (by rewrite [Shape.rowMajor_val_two, Shape.rowMajor_val_one]; show q.val = 0 * 512 + q.val; omega)

/-- The mean reaches the region as the reference's mean stage of the same features and edge list. -/
theorem mean_eq (c : Dev nD) :
    (V m c main_v23 : S10000x512.Idx → EReal)
      = Cert.ReferenceIdeal.Read.val_main_v22 (F := Ideal) (m ((c : Thread nD τ).loc main_arg0)) (m ((c : Thread nD τ).loc main_arg1)) := by
  dsimp only [V, hostOps0]; after_results_simp; rfl

end Cert.Sage.Entry

end
-- ==== Proof.lean ====
/-
  A graph layer with mean aggregation and a swish activation: the kernel against its reference.

  Both programs first form, for every node, the mean of the feature rows of its in-neighbours: the rows of `x`
  gathered along the edges' sources, added into the edges' targets, and divided by the in-degree or by one. The
  two programs build this mean by the same operations in the same order, so it is one function of `x` and the
  edge list. With `M` that mean, the result at node `p`, feature `q` is `h · σ(h)`, where
  `σ(h) = 1 / (1 + e^(-h))` and `h` is the sum of `∑ k, M (p, k) · W_l (k, q)`, `∑ k, x (p, k) · W_r (k, q)` and `b q`.

  The kernel changes the float format of `M`, `x` and the weights before its grid runs (the identity on extended
  reals), tiles the nodes into five row blocks, forms both products in each block, adds the bias last and applies
  the logistic as one operation. The reference adds the bias between the products and spells the logistic with
  a negation, an exponential, a sum and a quotient. On the extended reals the logistic is that spelling, and
  addition is commutative and associative, so the two results are equal element by element, with no use of the
  inputs' finiteness.

  The ideal pass rewrote nothing in the kernel, so the idealization claim has no conjunct to prove.
-/
import proofs.«156588_j14697378087214_1_alg».proof.Defs
import proofs.«156588_j14697378087214_1_alg».proof.Proof.Gen.Kernel
import proofs.«156588_j14697378087214_1_alg».proof.Proof.Gen.Kernel.Skeleton
import proofs.«156588_j14697378087214_1_alg».proof.Proof.Gen.Kernel.Launch
import proofs.«156588_j14697378087214_1_alg».proof.Proof.Gen.Kernel.Points
import proofs.«156588_j14697378087214_1_alg».proof.Proof.Gen.Kernel.Frame
import proofs.«156588_j14697378087214_1_alg».proof.Proof.Gen.KernelIdeal
import proofs.«156588_j14697378087214_1_alg».proof.Proof.Gen.KernelIdeal.Skeleton
import proofs.«156588_j14697378087214_1_alg».proof.Proof.Gen.KernelIdeal.Launch
import proofs.«156588_j14697378087214_1_alg».proof.Proof.Gen.KernelIdeal.Points
import proofs.«156588_j14697378087214_1_alg».proof.Proof.Gen.KernelIdeal.Frame
import proofs.«156588_j14697378087214_1_alg».proof.Proof.Gen.ReferenceIdeal
import proofs.«156588_j14697378087214_1_alg».proof.Proof.Gen.Pre_finite_inputs
import proofs.«156588_j14697378087214_1_alg».proof.Proof.Gen.KernelIdeal.Value
import proofs.«156588_j14697378087214_1_alg».proof.Proof.Gen.ReferenceIdeal.Run
import proofs.«156588_j14697378087214_1_alg».proof.Proof.Gen.ReferenceIdeal.Read
import proofs.«156588_j14697378087214_1_alg».proof.Proof.SageKernel
import proofs.«156588_j14697378087214_1_alg».proof.Proof.SageRef
import proofs.«156588_j14697378087214_1_alg».proof.Proof.SageEntry
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- The idealized kernel runs and leaves its arguments as they were. -/
theorem frame_kernelIdeal : Cert.frame_KernelIdeal := fun m ρ _ => Cert.KernelIdeal.Gen.frame m ρ

/-- The idealized reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array is the layer's function of the arrays its region finds,
    the reference's is the same function of its own mean stage and arguments, and the arrays the region finds
    are those: the mean stage, the features, the weights, and the bias read along its one row. -/
theorem algebraic : Cert.algebraic_KernelIdeal_ReferenceIdeal := by
  intro m ρ m' ρ' _ hagree
  refine ⟨fun c => Cert.Sage.Ker.target m c, Cert.Sage.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v35_eq, Cert.Sage.Ref.result_eq, a0, a1, a2, a3, a4]
  show _ = Cert.Sage.sageOut _ _ _ _ _
  rw [Cert.Sage.Entry.mean_eq m c, Cert.Sage.Entry.feat_eq m c, Cert.Sage.Entry.wl_eq m c, Cert.Sage.Entry.wr_eq m c]
  congr 1
  funext q
  exact (Cert.Sage.Entry.bias_eq m c q).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
